-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x64 : Shape := ⟨2, ![8192, 64]⟩
abbrev S4096x64 : Shape := ⟨2, ![4096, 64]⟩
abbrev S_ : Shape := ⟨0, ![]⟩

class Facts : Prop where
  bcast_S_S8192x64 : S_.BroadcastsInDim S8192x64 (![] : Fin 0 → Fin S8192x64.rank)
  reducesTo_S8192x64_S_d0_1 : S8192x64.ReducesTo [0, 1] S_
  h_S_ : 0 < S_.numel
  bcast_S_S4096x64 : S_.BroadcastsInDim S4096x64 (![] : Fin 0 → Fin S4096x64.rank)
  reducesTo_S4096x64_S_d0_1 : S4096x64.ReducesTo [0, 1] S_

variable [Facts]

def fn {F : FTy → Type} [FloatOps F] (main_arg0 : FVec F S8192x64 .f32) (main_arg1 : FVec F S4096x64 .f32) (main_arg2 : FVec F S4096x64 .f32) : IVec S_ 1 :=
  let main_v0 : FVec F S8192x64 .f32 := Host.absf main_arg0
  let main_cst : FVec F S_ .f32 := constant S_ .f32 0x7F800000#32
  let main_v1 : FVec F S8192x64 .f32 := broadcastInDim S8192x64 ![] bcast_S_S8192x64 main_cst
  let main_v2 : IVec S8192x64 1 := cmpf .olt main_v0 main_v1
  let main_c : IVec S_ 1 := constantI S_ 1 1#1
  let main_v3 : IVec S_ 1 := (fun x v => Host.reduce IntOp.andi x v reducesTo_S8192x64_S_d0_1 h_S_) main_v2 main_c
  let main_v4 : FVec F S4096x64 .f32 := Host.absf main_arg1
  let main_cst_0 : FVec F S_ .f32 := constant S_ .f32 0x7F800000#32
  let main_v5 : FVec F S4096x64 .f32 := broadcastInDim S4096x64 ![] bcast_S_S4096x64 main_cst_0
  let main_v6 : IVec S4096x64 1 := cmpf .olt main_v4 main_v5
  let main_c_1 : IVec S_ 1 := constantI S_ 1 1#1
  let main_v7 : IVec S_ 1 := (fun x v => Host.reduce IntOp.andi x v reducesTo_S4096x64_S_d0_1 h_S_) main_v6 main_c_1
  let main_v8 : IVec S_ 1 := andi main_v3 main_v7
  let main_v9 : FVec F S4096x64 .f32 := Host.absf main_arg2
  let main_cst_2 : FVec F S_ .f32 := constant S_ .f32 0x7F800000#32
  let main_v10 : FVec F S4096x64 .f32 := broadcastInDim S4096x64 ![] bcast_S_S4096x64 main_cst_2
  let main_v11 : IVec S4096x64 1 := cmpf .olt main_v9 main_v10
  let main_c_3 : IVec S_ 1 := constantI S_ 1 1#1
  let main_v12 : IVec S_ 1 := (fun x v => Host.reduce IntOp.andi x v reducesTo_S4096x64_S_d0_1 h_S_) main_v11 main_c_3
  let main_v13 : IVec S_ 1 := andi main_v8 main_v12
  main_v13
-- ==== Kernel.lean ====
abbrev S8192x64 : Shape := ⟨2, ![8192, 64]⟩
abbrev S4096x64 : Shape := ⟨2, ![4096, 64]⟩
abbrev S_ : Shape := ⟨0, ![]⟩
abbrev S4096 : Shape := ⟨1, ![4096]⟩
abbrev S1x4096 : Shape := ⟨2, ![1, 4096]⟩
abbrev S8192x4096 : Shape := ⟨2, ![8192, 4096]⟩
abbrev S1024x64 : Shape := ⟨2, ![1024, 64]⟩
abbrev S512x64 : Shape := ⟨2, ![512, 64]⟩
abbrev S1x512 : Shape := ⟨2, ![1, 512]⟩
abbrev S1024x512 : Shape := ⟨2, ![1024, 512]⟩
abbrev S1024 : Shape := ⟨1, ![1024]⟩
abbrev S1024x1 : Shape := ⟨2, ![1024, 1]⟩
abbrev S64x512 : Shape := ⟨2, ![64, 512]⟩

abbrev nBuf : Space → Nat
  | .hbm => 12
  | .vmem => 12
  | .smem => 0
  | _ => 0

abbrev bufTy : (tb : Table) → Fin (tcTables nBuf tb) → BufTy
  | .hbm, ⟨0, _⟩ => ⟨S8192x64, .f32⟩
  | .hbm, ⟨1, _⟩ => ⟨S4096x64, .f32⟩
  | .hbm, ⟨2, _⟩ => ⟨S4096x64, .f32⟩
  | .hbm, ⟨3, _⟩ => ⟨S4096x64, .f32⟩
  | .hbm, ⟨4, _⟩ => ⟨S_, .f32⟩
  | .hbm, ⟨5, _⟩ => ⟨S4096, .f32⟩
  | .hbm, ⟨6, _⟩ => ⟨S1x4096, .f32⟩
  | .hbm, ⟨7, _⟩ => ⟨S4096x64, .f32⟩
  | .hbm, ⟨8, _⟩ => ⟨S_, .f32⟩
  | .hbm, ⟨9, _⟩ => ⟨S4096, .f32⟩
  | .hbm, ⟨10, _⟩ => ⟨S1x4096, .f32⟩
  | .hbm, ⟨11, _⟩ => ⟨S8192x4096, .f32⟩
  | .local _ .vmem, ⟨0, _⟩ => ⟨S1024x64, .f32⟩
  | .local _ .vmem, ⟨1, _⟩ => ⟨S1024x64, .f32⟩
  | .local _ .vmem, ⟨2, _⟩ => ⟨S512x64, .f32⟩
  | .local _ .vmem, ⟨3, _⟩ => ⟨S512x64, .f32⟩
  | .local _ .vmem, ⟨4, _⟩ => ⟨S512x64, .f32⟩
  | .local _ .vmem, ⟨5, _⟩ => ⟨S512x64, .f32⟩
  | .local _ .vmem, ⟨6, _⟩ => ⟨S1x512, .f32⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S1024x512, .f32⟩
  | .local _ .vmem, ⟨11, _⟩ => ⟨S1024x512, .f32⟩
  | _, _ => ⟨S8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  reducesTo_S4096x64_S4096_d1 : S4096x64.ReducesTo [1] S4096
  h_S_ : 0 < S_.numel
  bcast_S4096_S1x4096_1 : S4096.BroadcastsInDim S1x4096 (![1] : Fin 1 → Fin S1x4096.rank)
  inb_S1024x64_S1024x64_0_0 : ∀ a, (![0, 0] : Fin 2 → Nat) a + S1024x64.size a ≤ S1024x64.size a
  h_S1024x64 : 0 < S1024x64.numel
  inb_S512x64_S512x64_0_0 : ∀ a, (![0, 0] : Fin 2 → Nat) a + S512x64.size a ≤ S512x64.size a
  h_S512x64 : 0 < S512x64.numel
  reduces_S1024x64_S1024 : S1024x64.Reduces [1] S1024
  shapeCasts_S1024_S1024x1 : S1024.ShapeCasts S1024x1
  bitsLt_bf16_f32 : FTy.bits .bf16 < FTy.bits .f32
  transposes_S512x64_p1_0_S64x512 : S512x64.Transposes [1, 0] S64x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1024x1_S1024x512 : S1024x1.Broadcasts S1024x512
  broadcasts_S1x512_S1024x512 : S1x512.Broadcasts S1024x512
  inb_S1024x512_S1024x512_0_0 : ∀ a, (![0, 0] : Fin 2 → Nat) a + S1024x512.size a ≤ S1024x512.size a
  h_S1024x512 : 0 < S1024x512.numel
  dot_S1024x64_S64x512_S1024x512_1_0_0_1_n_n_wf : DotDims.WF S1024x64 S64x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x64.size a ≤ S8192x64.size a
  hwx0_0 : ∀ i : grid0.Coords, EltTy.bits .f32 = 32 ∨ (Rect.block (s := S8192x64) S1024x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x64.size a ≤ S4096x64.size a
  hwx0_1 : ∀ i : grid0.Coords, EltTy.bits .f32 = 32 ∨ (Rect.block (s := S4096x64) S512x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x64.size a ≤ S4096x64.size a
  hwx0_2 : ∀ i : grid0.Coords, EltTy.bits .f32 = 32 ∨ (Rect.block (s := S4096x64) S512x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x4096.size a
  hwx0_3 : ∀ i : grid0.Coords, EltTy.bits .f32 = 32 ∨ (Rect.block (s := S1x4096) S1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x4096.size a
  hwx0_4 : ∀ i : grid0.Coords, EltTy.bits .f32 = 32 ∨ (Rect.block (s := S1x4096) S1x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x512.size a ≤ S8192x4096.size a
  hwx0_5 : ∀ i : grid0.Coords, EltTy.bits .f32 = 32 ∨ (Rect.block (s := S8192x4096) S1024x512.size (cc0_transform_5 i) (hinb0_5 i)).WholeWords (EltTy.packing .f32)

variable [Facts₀]

def dot_S1024x64_S64x512_S1024x512_1_0_0_1_n_n : DotDims S1024x64 S64x512 S1024x512 where
  lhsContracting := [1]
  rhsContracting := [0]
  lhsNonContracting := [0]
  rhsNonContracting := [1]
  lhsBatch := []
  rhsBatch := []
  wf := dot_S1024x64_S64x512_S1024x512_1_0_0_1_n_n_wf

abbrev win0_0 : Pipeline.Window sig grid0 :=
  Pipeline.Window.ofSpec (Memref.whole main_arg0) S1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v6) S1024x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8192x64 : Shape := ⟨2, ![8192, 64]⟩
abbrev S4096x64 : Shape := ⟨2, ![4096, 64]⟩
abbrev S_ : Shape := ⟨0, ![]⟩
abbrev S8192 : Shape := ⟨1, ![8192]⟩
abbrev S8192x1 : Shape := ⟨2, ![8192, 1]⟩
abbrev S4096 : Shape := ⟨1, ![4096]⟩
abbrev S1x4096 : Shape := ⟨2, ![1, 4096]⟩
abbrev S8192x4096 : Shape := ⟨2, ![8192, 4096]⟩

abbrev nBuf : Space → Nat
  | .hbm => 52
  | .vmem => 0
  | .smem => 0
  | _ => 0

abbrev bufTy : (tb : Table) → Fin (tcTables nBuf tb) → BufTy
  | .hbm, ⟨0, _⟩ => ⟨S8192x64, .f32⟩
  | .hbm, ⟨1, _⟩ => ⟨S4096x64, .f32⟩
  | .hbm, ⟨2, _⟩ => ⟨S4096x64, .f32⟩
  | .hbm, ⟨3, _⟩ => ⟨S8192x64, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S4096x64, .f32⟩
  | .hbm, ⟨8, _⟩ => ⟨S_, .f32⟩
  | .hbm, ⟨9, _⟩ => ⟨S4096, .f32⟩
  | .hbm, ⟨10, _⟩ => ⟨S1x4096, .f32⟩
  | .hbm, ⟨11, _⟩ => ⟨S8192x4096, .f32⟩
  | .hbm, ⟨12, _⟩ => ⟨S8192x4096, .f32⟩
  | .hbm, ⟨13, _⟩ => ⟨S8192x4096, .f32⟩
  | .hbm, ⟨14, _⟩ => ⟨S8192x4096, .f32⟩
  | .hbm, ⟨15, _⟩ => ⟨S_, .f32⟩
  | .hbm, ⟨16, _⟩ => ⟨S8192x4096, .f32⟩
  | .hbm, ⟨17, _⟩ => ⟨S8192x4096, .f32⟩
  | .hbm, ⟨18, _⟩ => ⟨S8192x4096, .f32⟩
  | .hbm, ⟨19, _⟩ => ⟨S_, .f32⟩
  | .hbm, ⟨20, _⟩ => ⟨S8192x4096, .f32⟩
  | .hbm, ⟨21, _⟩ => ⟨S8192x4096, .f32⟩
  | .hbm, ⟨22, _⟩ => ⟨S8192x4096, .f32⟩
  | .hbm, ⟨23, _⟩ => ⟨S8192x64, .f32⟩
  | .hbm, ⟨24, _⟩ => ⟨S_, .f32⟩
  | .hbm, ⟨25, _⟩ => ⟨S8192, .f32⟩
  | .hbm, ⟨26, _⟩ => ⟨S8192x1, .f32⟩
  | .hbm, ⟨27, _⟩ => ⟨S4096x64, .f32⟩
  | .hbm, ⟨28, _⟩ => ⟨S_, .f32⟩
  | .hbm, ⟨29, _⟩ => ⟨S4096, .f32⟩
  | .hbm, ⟨30, _⟩ => ⟨S1x4096, .f32⟩
  | .hbm, ⟨31, _⟩ => ⟨S8192x4096, .f32⟩
  | .hbm, ⟨32, _⟩ => ⟨S8192x4096, .f32⟩
  | .hbm, ⟨33, _⟩ => ⟨S8192x4096, .f32⟩
  | .hbm, ⟨34, _⟩ => ⟨S8192x4096, .f32⟩
  | .hbm, ⟨35, _⟩ => ⟨S_, .f32⟩
  | .hbm, ⟨36, _⟩ => ⟨S8192x4096, .f32⟩
  | .hbm, ⟨37, _⟩ => ⟨S8192x4096, .f32⟩
  | .hbm, ⟨38, _⟩ => ⟨S8192x4096, .f32⟩
  | .hbm, ⟨39, _⟩ => ⟨S_, .f32⟩
  | .hbm, ⟨40, _⟩ => ⟨S8192x4096, .f32⟩
  | .hbm, ⟨41, _⟩ => ⟨S8192x4096, .f32⟩
  | .hbm, ⟨42, _⟩ => ⟨S8192x4096, .f32⟩
  | .hbm, ⟨43, _⟩ => ⟨S8192x4096, .f32⟩
  | .hbm, ⟨44, _⟩ => ⟨S8192x4096, .f32⟩
  | .hbm, ⟨45, _⟩ => ⟨S8192x4096, .f32⟩
  | .hbm, ⟨46, _⟩ => ⟨S_, .f32⟩
  | .hbm, ⟨47, _⟩ => ⟨S8192x4096, .f32⟩
  | .hbm, ⟨48, _⟩ => ⟨S8192x4096, .f32⟩
  | .hbm, ⟨49, _⟩ => ⟨S_, .f32⟩
  | .hbm, ⟨50, _⟩ => ⟨S8192x4096, .f32⟩
  | .hbm, ⟨51, _⟩ => ⟨S8192x4096, .f32⟩
  | _, _ => ⟨S8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_5 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_6 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_7 : Ref sig .tc := ⟨.hbm, 46, rfl⟩
abbrev main_v35 : Ref sig .tc := ⟨.hbm, 47, rfl⟩
abbrev main_v36 : Ref sig .tc := ⟨.hbm, 48, rfl⟩
abbrev main_cst_8 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]

class Facts₀ : Prop where
  reducesTo_S8192x64_S8192_d1 : S8192x64.ReducesTo [1] S8192
  h_S_ : 0 < S_.numel
  bcast_S8192_S8192x1_0 : S8192.BroadcastsInDim S8192x1 (![0] : Fin 1 → Fin S8192x1.rank)
  reducesTo_S4096x64_S4096_d1 : S4096x64.ReducesTo [1] S4096
  bcast_S4096_S1x4096_1 : S4096.BroadcastsInDim S1x4096 (![1] : Fin 1 → Fin S1x4096.rank)
  bcast_S8192x1_S8192x4096_0_1 : S8192x1.BroadcastsInDim S8192x4096 (![0, 1] : Fin 2 → Fin S8192x4096.rank)
  bcast_S1x4096_S8192x4096_0_1 : S1x4096.BroadcastsInDim S8192x4096 (![0, 1] : Fin 2 → Fin S8192x4096.rank)
  bcast_S_S8192x4096 : S_.BroadcastsInDim S8192x4096 (![] : Fin 0 → Fin S8192x4096.rank)
  dot_S8192x64_S4096x64_S8192x4096_1_1_0_0_n_n_wf : DotDims.WF S8192x64 S4096x64 S8192x4096 [1] [1] [0] [0] [] []

variable [Facts₀]

def dot_S8192x64_S4096x64_S8192x4096_1_1_0_0_n_n : DotDims S8192x64 S4096x64 S8192x4096 where
  lhsContracting := [1]
  rhsContracting := [1]
  lhsNonContracting := [0]
  rhsNonContracting := [0]
  lhsBatch := []
  rhsBatch := []
  wf := dot_S8192x64_S4096x64_S8192x4096_1_1_0_0_n_n_wf

class Facts : Prop extends Facts₀ where

variable [Facts]
-- ==== Proof.Spec.lean ====
/-
  The function both programs compute, entry by entry, on the extended reals.

  X holds 8192 points of 64 coordinates, P and N hold 4096 prototypes each. Entry (i, j) of the result is
  σ(d(Xᵢ, Nⱼ) − d(Xᵢ, Pⱼ)) with σ(z) = 1 / (1 + e^(−z)), the distance taken through the expansion
  d(x, y) = √(max((‖x‖² + ‖y‖²) − 2·⟨x, y⟩, 0)), and ‖·‖², ⟨·,·⟩ plain sums over the 64 coordinates.
  The same definitions serve a tile of rows (1024 points, 512 prototypes), which is why the row counts are parameters.
-/
import Idealize.ShloMosaic.PureOps.Ideal
import Idealize.ShloMosaic.Lib.ValueIdx

noncomputable section

namespace Cert.PairDist

open Idealize.ShloMosaic Idealize.ShloMosaic.ValueIdx

/-- The squared norm of row `r` of an `R × 64` matrix. -/
def sqn (R : Nat) (a : (⟨2, ![R, 64]⟩ : Shape).Idx → EReal) (r : Fin R) : EReal :=
  ∑ k : Fin 64, a (ix2 r k) * a (ix2 r k)

/-- The inner product of row `i` of an `R × 64` matrix with row `j` of an `S × 64` matrix. -/
def inner (R S : Nat) (x : (⟨2, ![R, 64]⟩ : Shape).Idx → EReal) (y : (⟨2, ![S, 64]⟩ : Shape).Idx → EReal)
    (i : Fin R) (j : Fin S) : EReal :=
  ∑ k : Fin 64, x (ix2 i k) * y (ix2 j k)

/-- The distance from two squared norms `a`, `b` and an inner product `c`: √(max((a + b) − 2·c, 0)). -/
def dist (a b c : EReal) : EReal :=
  Ideal.sqrt (max ((a + b) - Ideal.ofBits .f32 0x40000000#32 * c) 0)

/-- One entry from its five ingredients: the point's squared norm, the two prototypes' squared norms, the two inner products. -/
def cell (xx pp nn xp xn : EReal) : EReal :=
  Ideal.logistic (dist xx nn xn - dist xx pp xp)

/-- The whole result: entry (i, j) from row i of X and rows j of P and N. -/
def G (x : (⟨2, ![8192, 64]⟩ : Shape).Idx → EReal) (p n : (⟨2, ![4096, 64]⟩ : Shape).Idx → EReal) :
    (⟨2, ![8192, 4096]⟩ : Shape).Idx → EReal := fun o =>
  cell (sqn 8192 x (o 0)) (sqn 4096 p (o 1)) (sqn 4096 n (o 1)) (inner 8192 4096 x p (o 0) (o 1)) (inner 8192 4096 x n (o 0) (o 1))

/-- The word of `1.0` denotes the number one. -/
theorem one_f32 : Ideal.ofBits .f32 0x3F800000#32 = 1 := by
  simp [Ideal.ofBits, Ideal.ieee, -EReal.coe_mul]; norm_num

/-- Written out, σ(z) is `1 / (1 + e^(−z))` with the ones spelt as float words. -/
theorem logistic_spelt (z : EReal) :
    Ideal.div (Ideal.ofBits .f32 0x3F800000#32) (Ideal.ofBits .f32 0x3F800000#32 + Ideal.exp (-z)) = Ideal.logistic z := by
  rw [one_f32]; rfl

/-- The result at explicit coordinates. -/
theorem G_ix2 (x : (⟨2, ![8192, 64]⟩ : Shape).Idx → EReal) (p n : (⟨2, ![4096, 64]⟩ : Shape).Idx → EReal)
    (i : Fin 8192) (j : Fin 4096) :
    G x p n (ix2 i j) = cell (sqn 8192 x i) (sqn 4096 p j) (sqn 4096 n j) (inner 8192 4096 x p i j) (inner 8192 4096 x n i j) := rfl

end Cert.PairDist

end
-- ==== Proof.Payload.lean ====
/-
  What the kernel's body computes on one tile, entry by entry.

  A tile pairs 1024 points (rows of `x`) with 512 prototypes of each kind (rows of `p`, `n`), whose squared norms arrive
  as two rows `pp`, `nn` of 512 numbers. Entry (r, c) of the stored value is `cell` of: the squared norm of row r of `x`
  (a lane sum kept as a column and repeated along the row), entries c of `pp` and `nn` (a row repeated down the columns),
  and the inner products of row r of `x` with rows c of `p` and `n` (a product with the transposed matrix, accumulated
  from zero; narrowing the factors to a shorter float format changes nothing on the extended reals).
-/
import proofs.«154758_j4140348473509_1_alg».proof.Proof.Gen.KernelIdeal.Skeleton
import proofs.«154758_j4140348473509_1_alg».proof.Proof.Spec
import Idealize.ShloMosaic.Lib.Pipeline.Value
import Idealize.ShloMosaic.Lib.ValueLayout
import Idealize.ShloMosaic.Lib.ValueIdx
import Idealize.ShloMosaic.PureOps.Ideal.Laws

noncomputable section

namespace Cert.PairDist.Tile

open Cert.KernelIdeal Cert.KernelIdeal.Gen Idealize.ShloMosaic Idealize.ShloMosaic.ValueIdx Cert.PairDist

/-- The lane sum of squares, kept as a column and repeated along each row, reads at (r, c) the squared norm of row r. -/
theorem rownorm_apply (x : FVec Ideal S1024x64 .f32) (r : Fin 1024) (c : Fin 512) :
    broadcastTo S1024x512 (shapeCast S1024x1 (multiReduction .add [1] S1024 (mulf x x) 0x00000000#32 reduces_S1024x64_S1024 (.inl rfl) rfl)
      shapeCasts_S1024_S1024x1) broadcasts_S1024x1_S1024x512 (ix2 r c) = sqn 1024 x r := by
  refine (broadcastTo_apply _ broadcasts_S1024x1_S1024x512 (ix2 r c) (ix2 r (0 : Fin 1)) (fun a => ?_)).trans ?_
  · match a with
    | ⟨0, _⟩ => show r.val = if (1024 : Nat) = 1 then 0 else r.val; rw [if_neg (by decide)]
    | ⟨1, _⟩ => show 0 = if (1 : Nat) = 1 then 0 else c.val; rw [if_pos rfl]
  refine (shapeCast_apply _ shapeCasts_S1024_S1024x1 (ix2 r (0 : Fin 1)) (ix1 r) ?_).trans ?_
  · rw [Shape.rowMajor_val_two, Shape.rowMajor_val_one]
    show r.val = r.val * 1 + 0
    omega
  refine (Ideal.multiReduction_add_single (mulf x x) 0x00000000#32 reduces_S1024x64_S1024 (.inl rfl) rfl (ix1 r)).trans ?_
  unfold sqn
  refine Finset.sum_congr rfl fun k _ => ?_
  have e : reduces_S1024x64_S1024.lift (ix1 r) k = ix2 r k :=
    funext fun d => Fin.ext (by match d with | ⟨0, _⟩ => rfl | ⟨1, _⟩ => rfl)
  exact congrArg (mulf x x) e

/-- A row of 512 numbers, recast to its own shape and repeated down the columns, reads at (r, c) its entry c. -/
theorem rowvec_apply (v : FVec Ideal S1x512 .f32) (r : Fin 1024) (c : Fin 512) :
    broadcastTo S1024x512 (shapeCast S1x512 v shapeCasts_S1x512_S1x512) broadcasts_S1x512_S1024x512 (ix2 r c) = v (ix2 (0 : Fin 1) c) := by
  rw [shapeCast_self]
  exact broadcastTo_1b_ab_apply v broadcasts_S1x512_S1024x512 r c

theorem lhs_ax0 (i : S1024x512.Idx) (q : dot_S1024x64_S64x512_S1024x512_1_0_0_1_n_n.contr.Idx) : (dot_S1024x64_S64x512_S1024x512_1_0_0_1_n_n.lhsIdx i q 0).val = (i 0).val := by
  unfold DotDims.lhsIdx
  rw [dif_neg (show ¬(0 : Fin S1024x64.rank) ∈ dot_S1024x64_S64x512_S1024x512_1_0_0_1_n_n.lhsBatch by decide), dif_pos (show (0 : Fin S1024x64.rank) ∈ dot_S1024x64_S64x512_S1024x512_1_0_0_1_n_n.lhsNonContracting by decide)]
  rfl
theorem lhs_ax1 (i : S1024x512.Idx) (q : dot_S1024x64_S64x512_S1024x512_1_0_0_1_n_n.contr.Idx) : (dot_S1024x64_S64x512_S1024x512_1_0_0_1_n_n.lhsIdx i q 1).val = (q ⟨0, by decide⟩).val :=
  dot_S1024x64_S64x512_S1024x512_1_0_0_1_n_n.lhsIdx_val_of_single rfl i q
theorem rhs_ax0 (i : S1024x512.Idx) (q : dot_S1024x64_S64x512_S1024x512_1_0_0_1_n_n.contr.Idx) : (dot_S1024x64_S64x512_S1024x512_1_0_0_1_n_n.rhsIdx i q 0).val = (q ⟨0, by decide⟩).val :=
  dot_S1024x64_S64x512_S1024x512_1_0_0_1_n_n.rhsIdx_val_of_single rfl i q
theorem rhs_ax1 (i : S1024x512.Idx) (q : dot_S1024x64_S64x512_S1024x512_1_0_0_1_n_n.contr.Idx) : (dot_S1024x64_S64x512_S1024x512_1_0_0_1_n_n.rhsIdx i q 1).val = (i 1).val := by
  unfold DotDims.rhsIdx
  rw [dif_neg (show ¬(1 : Fin S64x512.rank) ∈ dot_S1024x64_S64x512_S1024x512_1_0_0_1_n_n.rhsBatch by decide), dif_pos (show (1 : Fin S64x512.rank) ∈ dot_S1024x64_S64x512_S1024x512_1_0_0_1_n_n.rhsNonContracting by decide)]
  rfl

/-- The product of the narrowed tile of points with the transposed narrowed tile of prototypes, accumulated from zero, reads at
    (r, c) the inner product of row r of the one with row c of the other. -/
theorem product_apply (x : FVec Ideal S1024x64 .f32) (y : FVec Ideal S512x64 .f32) (r : Fin 1024) (c : Fin 512) :
    matmul dot_S1024x64_S64x512_S1024x512_1_0_0_1_n_n none (truncf .bf16 x bitsLt_bf16_f32)
      (transpose S64x512 [1, 0] (truncf .bf16 y bitsLt_bf16_f32) transposes_S512x64_p1_0_S64x512)
      (constant S1024x512 .f32 0x00000000#32) (ix2 r c) = inner 1024 512 x y r c := by
  simp only [matmul]
  rw [Ideal.matmul_constant_zero_apply, ← Equiv.sum_comp (contrEquiv1 dot_S1024x64_S64x512_S1024x512_1_0_0_1_n_n 64 rfl rfl).symm]
  unfold inner
  refine Finset.sum_congr rfl fun k _ => ?_
  have hk := contrEquiv1_symm_val dot_S1024x64_S64x512_S1024x512_1_0_0_1_n_n 64 rfl rfl k
  have el : dot_S1024x64_S64x512_S1024x512_1_0_0_1_n_n.lhsIdx (ix2 r c) ((contrEquiv1 dot_S1024x64_S64x512_S1024x512_1_0_0_1_n_n 64 rfl rfl).symm k) = ix2 r k := funext fun a => Fin.ext (by
    match a with
    | ⟨0, _⟩ => exact lhs_ax0 _ _
    | ⟨1, _⟩ => exact (lhs_ax1 _ _).trans hk)
  have er : dot_S1024x64_S64x512_S1024x512_1_0_0_1_n_n.rhsIdx (ix2 r c) ((contrEquiv1 dot_S1024x64_S64x512_S1024x512_1_0_0_1_n_n 64 rfl rfl).symm k) = ix2 k c := funext fun a => Fin.ext (by
    match a with
    | ⟨0, _⟩ => exact (rhs_ax0 _ _).trans hk
    | ⟨1, _⟩ => exact rhs_ax1 _ _)
  rw [el, er, transpose_ix2_apply]
  rfl

/-- The pointwise shell around those pieces: from the repeated squared norm `A`, the repeated norm rows `Bp`, `Bn` and the two
    products `Mp`, `Mn`, entry j is `cell` of their entries. -/
theorem shell_apply (A Bn Bp Mn Mp : FVec Ideal S1024x512 .f32) (j : S1024x512.Idx) :
    logistic (subf
        (sqrt (maximumf (subf (addf A Bn) (mulf (broadcast S1024x512 (FloatOps.ofBits (F := Ideal) .f32 0x40000000#32)) Mn))
          (broadcast S1024x512 (FloatOps.ofBits (F := Ideal) .f32 0x00000000#32))))
        (sqrt (maximumf (subf (addf A Bp) (mulf (broadcast S1024x512 (FloatOps.ofBits (F := Ideal) .f32 0x40000000#32)) Mp))
          (broadcast S1024x512 (FloatOps.ofBits (F := Ideal) .f32 0x00000000#32))))) j
      = cell (A j) (Bp j) (Bn j) (Mp j) (Mn j) := by
  unfold cell dist
  rw [← Ideal.ofBits_zero_f32]
  rfl

/-- The stored value at (r, c). -/
theorem payload_apply (x : Vec Ideal S1024x64 .f32) (p n : Vec Ideal S512x64 .f32) (pp nn : Vec Ideal S1x512 .f32) (r : Fin 1024) (c : Fin 512) :
    k0_pay1 (F := Ideal) x p n pp nn (ix2 r c)
      = cell (sqn 1024 x r) (pp (ix2 (0 : Fin 1) c)) (nn (ix2 (0 : Fin 1) c)) (inner 1024 512 x p r c) (inner 1024 512 x n r c) := by
  unfold k0_pay1
  refine (shell_apply _ _ _ _ _ (ix2 r c)).trans ?_
  rw [rownorm_apply x r c, rowvec_apply pp r c, rowvec_apply nn r c, product_apply x p r c, product_apply x n r c]

end Cert.PairDist.Tile

end
-- ==== Proof.NormRows.lean ====
/-
  The two rows of prototype norms the kernel's program computes before the tiled region.

  Each is a row sum of squares over the 64 coordinates, started from zero and laid out as one row of 4096 numbers; read at
  column j it is the squared norm of prototype j.
-/
import proofs.«154758_j4140348473509_1_alg».proof.Proof.Gen.KernelIdeal.Frame
import proofs.«154758_j4140348473509_1_alg».proof.Proof.Spec
import Idealize.ShloMosaic.Lib.StableHlo.Run
import Idealize.ShloMosaic.Lib.Pipeline.Value
import Idealize.ShloMosaic.Lib.ValueIdx
import Idealize.ShloMosaic.PureOps.Ideal.Laws

noncomputable section

namespace Cert.PairDist.NormRows

open Cert.KernelIdeal Cert.KernelIdeal.Gen Idealize.ShloMosaic Idealize.ShloMosaic.TcCoe Idealize.ShloMosaic.ValueIdx
open Idealize.ShloMosaic.StableHlo Idealize.SL.Sem Cert.PairDist

/-- The row of squared norms of a 4096 × 64 matrix, as the program spells it. -/
def normRow (a : FVec Ideal S4096x64 .f32) : FVec Ideal S1x4096 .f32 :=
  broadcastInDim S1x4096 ![1] bcast_S4096_S1x4096_1
    (Host.reduceAdd (F := Ideal) (mulf a a) (constant (F := Ideal) S_ .f32 0x00000000#32) reducesTo_S4096x64_S4096_d1 h_S_)

/-- Read at column j (its one row has index 0) it is the squared norm of row j. -/
theorem normRow_apply (a : FVec Ideal S4096x64 .f32) (u : Fin 1) (j : Fin 4096) : normRow a (ix2 u j) = sqn 4096 a j := by
  unfold normRow
  refine (broadcastInDim_apply _ bcast_S4096_S1x4096_1 _ (ix2 u j) (ix1 j) (fun d => ?_)).trans ?_
  · match d with
    | ⟨0, _⟩ => show j.val = if (4096 : Nat) = 1 then 0 else j.val; rw [if_neg (by decide)]
  simp only [Host.reduceAdd, Ideal.hostReduceAdd_def]
  rw [Ideal.hostReduceAdd_single reducesTo_S4096x64_S4096_d1 (by decide)]
  show Ideal.ofBits .f32 0x00000000#32 + _ = _
  rw [Ideal.ofBits_zero_f32, zero_add]
  unfold sqn
  refine Finset.sum_congr rfl fun k _ => ?_
  exact congrArg (mulf a a) (funext fun d => Fin.ext (by match d with | ⟨0, _⟩ => rfl | ⟨1, _⟩ => rfl))

variable (m : (ℓ : Loc nD τ sig) → Buf (Elt Ideal) ℓ)

/-- When the region starts, the fourth operand's array is the norm row of the second argument. -/
theorem V_v2 (c : Dev nD) : (V m c main_v2 : S1x4096.Idx → EReal) = normRow (m ((c : Thread nD τ).loc main_arg1)) := by
  dsimp only [Gen.V, Gen.hostOps0]
  after_results
  rfl

/-- and the fifth operand's array the norm row of the third argument. -/
theorem V_v5 (c : Dev nD) : (V m c main_v5 : S1x4096.Idx → EReal) = normRow (m ((c : Thread nD τ).loc main_arg2)) := by
  dsimp only [Gen.V, Gen.hostOps0]
  after_results
  rfl

end Cert.PairDist.NormRows

end
-- ==== Proof.Tiles.lean ====
/-
  From tiles to the whole array.

  The region visits an 8 × 8 grid. At point (a, b) it is handed rows 1024a … 1024a + 1023 of X, rows 512b … 512b + 511 of P and
  of N, and columns 512b … 512b + 511 of the two norm rows; it writes the tile of the result with those rows and columns.
  So an entry of a point tile or prototype tile is an entry of the argument, an entry of a norm-row tile is a prototype's
  squared norm, a tile's row norms and inner products are the arrays', and what a point writes back is its tile of `G`.
  The 64 tiles cover the result (entry (i, j) lies in tile (i / 1024, j / 512)), so the result array ends as `G`.
-/
import proofs.«154758_j4140348473509_1_alg».proof.Proof.Gen.KernelIdeal.Value
import proofs.«154758_j4140348473509_1_alg».proof.Proof.Payload
import proofs.«154758_j4140348473509_1_alg».proof.Proof.NormRows
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.PairDist.Tiles

open Cert.KernelIdeal Cert.KernelIdeal.Gen Cert.KernelIdeal.Value Idealize.ShloMosaic.ValueIdx Cert.PairDist

variable (m : (ℓ : Loc nD τ sig) → Buf (Elt Ideal) ℓ) (ρ : Dev nD → PrngReg)

theorem hz : (![0, 0] : Fin 2 → Nat) = fun _ => 0 := funext fun a => by fin_cases a <;> rfl

/-- Where each operand's tile sits at a grid point, relative to the result's tile (a, b): X's at (a, 0), P's and N's at (b, 0),
    the norm rows' at (0, b); and a, b ≤ 7. Decided over the 64 points. -/
theorem tile_facts : ∀ t : Fin cfg0.N,
    win0_0.index t (0 : Fin 2) = win0_5.index t (0 : Fin 2) ∧ win0_0.index t (1 : Fin 2) = 0
    ∧ win0_1.index t (0 : Fin 2) = win0_5.index t (1 : Fin 2) ∧ win0_1.index t (1 : Fin 2) = 0
    ∧ win0_2.index t (0 : Fin 2) = win0_5.index t (1 : Fin 2) ∧ win0_2.index t (1 : Fin 2) = 0
    ∧ win0_3.index t (0 : Fin 2) = 0 ∧ win0_3.index t (1 : Fin 2) = win0_5.index t (1 : Fin 2)
    ∧ win0_4.index t (0 : Fin 2) = 0 ∧ win0_4.index t (1 : Fin 2) = win0_5.index t (1 : Fin 2)
    ∧ win0_5.index t (0 : Fin 2) ≤ 7 ∧ win0_5.index t (1 : Fin 2) ≤ 7 :=
  (by decide +kernel : ∀ t : Fin grid0.N, _)

/-- Every tile position (a, b) of the result is some point's. -/
theorem tile_onto : ∀ (a : Fin 8) (b : Fin 8), ∃ t : Fin cfg0.N, win0_5.index t = ![a.val, b.val] :=
  (by decide +kernel : ∀ (a : Fin 8) (b : Fin 8), ∃ t : Fin grid0.N, win0_5.index t = ![a.val, b.val])

/-- The three arguments as launched, -/
abbrev X (c : Dev nD) : Vec Ideal S8192x64 .f32 := m ((c : Thread nD τ).loc main_arg0)
abbrev P (c : Dev nD) : Vec Ideal S4096x64 .f32 := m ((c : Thread nD τ).loc main_arg1)
abbrev N (c : Dev nD) : Vec Ideal S4096x64 .f32 := m ((c : Thread nD τ).loc main_arg2)
/-- and the five tiles a point is handed. -/
abbrev xTile (c : Dev nD) (t : Fin cfg0.N) : Vec Ideal S1024x64 .f32 := iblk m c 0 t
abbrev pTile (c : Dev nD) (t : Fin cfg0.N) : Vec Ideal S512x64 .f32 := iblk m c 1 t
abbrev nTile (c : Dev nD) (t : Fin cfg0.N) : Vec Ideal S512x64 .f32 := iblk m c 2 t
abbrev ppTile (c : Dev nD) (t : Fin cfg0.N) : Vec Ideal S1x512 .f32 := iblk m c 3 t
abbrev nnTile (c : Dev nD) (t : Fin cfg0.N) : Vec Ideal S1x512 .f32 := iblk m c 4 t

/-- Row r of the tile of points is point 1024a + r. -/
theorem xTile_apply (c : Dev nD) (t : Fin cfg0.N) (r : Fin 1024) (k : Fin 64) (i : Fin 8192)
    (hi : i.val = win0_5.index t (0 : Fin 2) * 1024 + r.val) : xTile m c t (ix2 r k) = X m c (ix2 i k) := by
  obtain ⟨e00, e01, -⟩ := tile_facts t
  show V m c main_arg0 (((cfg0.win 0).blk t).view.emb (ix2 r k)) = m ((c : Thread nD τ).loc main_arg0) (ix2 i k)
  rw [V_main_arg0]
  refine congrArg _ (funext fun a => Fin.ext ?_)
  match a with
  | ⟨0, _⟩ => show win0_0.index t (0 : Fin 2) * 1024 + 1 * r.val = i.val; omega
  | ⟨1, _⟩ => show win0_0.index t (1 : Fin 2) * 64 + 1 * k.val = k.val; omega

/-- Row q of the tile of P is prototype 512b + q. -/
theorem pTile_apply (c : Dev nD) (t : Fin cfg0.N) (q : Fin 512) (k : Fin 64) (j : Fin 4096)
    (hj : j.val = win0_5.index t (1 : Fin 2) * 512 + q.val) : pTile m c t (ix2 q k) = P m c (ix2 j k) := by
  obtain ⟨-, -, e10, e11, -⟩ := tile_facts t
  show V m c main_arg1 (((cfg0.win 1).blk t).view.emb (ix2 q k)) = m ((c : Thread nD τ).loc main_arg1) (ix2 j k)
  rw [V_main_arg1]
  refine congrArg _ (funext fun a => Fin.ext ?_)
  match a with
  | ⟨0, _⟩ => show win0_1.index t (0 : Fin 2) * 512 + 1 * q.val = j.val; omega
  | ⟨1, _⟩ => show win0_1.index t (1 : Fin 2) * 64 + 1 * k.val = k.val; omega

/-- Row q of the tile of N likewise. -/
theorem nTile_apply (c : Dev nD) (t : Fin cfg0.N) (q : Fin 512) (k : Fin 64) (j : Fin 4096)
    (hj : j.val = win0_5.index t (1 : Fin 2) * 512 + q.val) : nTile m c t (ix2 q k) = N m c (ix2 j k) := by
  obtain ⟨-, -, -, -, e20, e21, -⟩ := tile_facts t
  show V m c main_arg2 (((cfg0.win 2).blk t).view.emb (ix2 q k)) = m ((c : Thread nD τ).loc main_arg2) (ix2 j k)
  rw [V_main_arg2]
  refine congrArg _ (funext fun a => Fin.ext ?_)
  match a with
  | ⟨0, _⟩ => show win0_2.index t (0 : Fin 2) * 512 + 1 * q.val = j.val; omega
  | ⟨1, _⟩ => show win0_2.index t (1 : Fin 2) * 64 + 1 * k.val = k.val; omega

/-- Entry q of the tile of P's norm row is the squared norm of prototype 512b + q. -/
theorem ppTile_apply (c : Dev nD) (t : Fin cfg0.N) (q : Fin 512) (j : Fin 4096)
    (hj : j.val = win0_5.index t (1 : Fin 2) * 512 + q.val) : ppTile m c t (ix2 (0 : Fin 1) q) = sqn 4096 (P m c) j := by
  obtain ⟨-, -, -, -, -, -, e30, e31, -⟩ := tile_facts t
  show V m c main_v2 (((cfg0.win 3).blk t).view.emb (ix2 (0 : Fin 1) q)) = _
  rw [NormRows.V_v2]
  have e : ((cfg0.win 3).blk t).view.emb (ix2 (0 : Fin 1) q) = ix2 (0 : Fin 1) j := funext fun a => Fin.ext (by
    match a with
    | ⟨0, _⟩ => show win0_3.index t (0 : Fin 2) * 1 + 1 * 0 = 0; omega
    | ⟨1, _⟩ => show win0_3.index t (1 : Fin 2) * 512 + 1 * q.val = j.val; omega)
  rw [e, NormRows.normRow_apply]

/-- Entry q of the tile of N's norm row likewise. -/
theorem nnTile_apply (c : Dev nD) (t : Fin cfg0.N) (q : Fin 512) (j : Fin 4096)
    (hj : j.val = win0_5.index t (1 : Fin 2) * 512 + q.val) : nnTile m c t (ix2 (0 : Fin 1) q) = sqn 4096 (N m c) j := by
  obtain ⟨-, -, -, -, -, -, -, -, e40, e41, -⟩ := tile_facts t
  show V m c main_v5 (((cfg0.win 4).blk t).view.emb (ix2 (0 : Fin 1) q)) = _
  rw [NormRows.V_v5]
  have e : ((cfg0.win 4).blk t).view.emb (ix2 (0 : Fin 1) q) = ix2 (0 : Fin 1) j := funext fun a => Fin.ext (by
    match a with
    | ⟨0, _⟩ => show win0_4.index t (0 : Fin 2) * 1 + 1 * 0 = 0; omega
    | ⟨1, _⟩ => show win0_4.index t (1 : Fin 2) * 512 + 1 * q.val = j.val; omega)
  rw [e, NormRows.normRow_apply]

/-- A tile's row norm is the point's. -/
theorem sqn_xTile (c : Dev nD) (t : Fin cfg0.N) (r : Fin 1024) (i : Fin 8192) (hi : i.val = win0_5.index t (0 : Fin 2) * 1024 + r.val) :
    sqn 1024 (xTile m c t) r = sqn 8192 (X m c) i := by
  unfold sqn
  exact Finset.sum_congr rfl fun k _ => by rw [xTile_apply m c t r k i hi]

/-- A tile's inner products are the arrays'. -/
theorem inner_xp (c : Dev nD) (t : Fin cfg0.N) (r : Fin 1024) (q : Fin 512) (i : Fin 8192) (j : Fin 4096)
    (hi : i.val = win0_5.index t (0 : Fin 2) * 1024 + r.val) (hj : j.val = win0_5.index t (1 : Fin 2) * 512 + q.val) :
    inner 1024 512 (xTile m c t) (pTile m c t) r q = inner 8192 4096 (X m c) (P m c) i j := by
  unfold inner
  exact Finset.sum_congr rfl fun k _ => by rw [xTile_apply m c t r k i hi, pTile_apply m c t q k j hj]

theorem inner_xn (c : Dev nD) (t : Fin cfg0.N) (r : Fin 1024) (q : Fin 512) (i : Fin 8192) (j : Fin 4096)
    (hi : i.val = win0_5.index t (0 : Fin 2) * 1024 + r.val) (hj : j.val = win0_5.index t (1 : Fin 2) * 512 + q.val) :
    inner 1024 512 (xTile m c t) (nTile m c t) r q = inner 8192 4096 (X m c) (N m c) i j := by
  unfold inner
  exact Finset.sum_congr rfl fun k _ => by rw [xTile_apply m c t r k i hi, nTile_apply m c t q k j hj]

/-- What point t writes back is its tile of `G` of the arguments. -/
theorem flushed_eq (c : Dev nD) (t : Fin cfg0.N) :
    (dats m 0 c).flushed 5 t = ((cfg0.win 5).blk t).view.read (Elt Ideal) (G (X m c) (P m c) (N m c)) := by
  rw [Value.flushed5]
  unfold out0_5
  rw [View.canon_unit_zero hz]
  simp only [View.ld_unit_zero (S := S1024x64) hz, View.ld_unit_zero (S := S512x64) hz, View.ld_unit_zero (S := S1x512) hz]
  refine funext fun (j : S1024x512.Idx) => ?_
  obtain ⟨r, q, rfl⟩ : ∃ (r : Fin 1024) (q : Fin 512), j = ix2 r q := ⟨j 0, j 1, eq_ix2 j⟩
  obtain ⟨-, -, -, -, -, -, -, -, -, -, b0, b1⟩ := tile_facts t
  have hi : win0_5.index t (0 : Fin 2) * 1024 + r.val < 8192 := by have := r.isLt; omega
  have hj : win0_5.index t (1 : Fin 2) * 512 + q.val < 4096 := by have := q.isLt; omega
  show k0_pay1 (F := Ideal) (xTile m c t) (pTile m c t) (nTile m c t) (ppTile m c t) (nnTile m c t) (ix2 r q)
    = G (X m c) (P m c) (N m c) (((cfg0.win 5).blk t).view.emb (ix2 r q))
  have eo : ((cfg0.win 5).blk t).view.emb (ix2 r q) = ix2 (⟨_, hi⟩ : Fin 8192) (⟨_, hj⟩ : Fin 4096) := funext fun a => Fin.ext (by
    match a with
    | ⟨0, _⟩ => show win0_5.index t (0 : Fin 2) * 1024 + 1 * r.val = win0_5.index t (0 : Fin 2) * 1024 + r.val; omega
    | ⟨1, _⟩ => show win0_5.index t (1 : Fin 2) * 512 + 1 * q.val = win0_5.index t (1 : Fin 2) * 512 + q.val; omega)
  rw [eo, G_ix2, Tile.payload_apply, sqn_xTile m c t r ⟨_, hi⟩ rfl, ppTile_apply m c t q ⟨_, hj⟩ rfl, nnTile_apply m c t q ⟨_, hj⟩ rfl,
    inner_xp m c t r q ⟨_, hi⟩ ⟨_, hj⟩ rfl rfl, inner_xn m c t r q ⟨_, hi⟩ ⟨_, hj⟩ rfl rfl]

/-- An entry of the result lies in point t's tile iff each coordinate lies in the tile's range. -/
theorem mem_tile (t : Fin cfg0.N) (i : S8192x4096.Idx) :
    i ∈ ((cfg0.win 5).blk t).view.set ↔ ∀ a : Fin 2, win0_5.index t a * S1024x512.size a ≤ (i a).val ∧ (i a).val < win0_5.index t a * S1024x512.size a + S1024x512.size a := by
  show i ∈ ((View.whole main_v6).slice (win0_5.rect t)).set ↔ _
  rw [View.set_slice_whole, Rect.mem_set_unit]
  exact Iff.rfl

/-- Every entry of the result lies in the tile of some point, which writes it back. -/
theorem cover (i : S8192x4096.Idx) : ∃ t : Fin cfg0.N, (cfg0.win 5).flush t = true ∧ i ∈ ((cfg0.win 5).blk t).view.set := by
  have hi0 : (i 0).val < 8192 := (i 0).isLt
  have hi1 : (i 1).val < 4096 := (i 1).isLt
  obtain ⟨t, ht⟩ := tile_onto ⟨(i 0).val / 1024, by omega⟩ ⟨(i 1).val / 512, by omega⟩
  have q0 : win0_5.index t (0 : Fin 2) = (i 0).val / 1024 := congrFun ht 0
  have q1 : win0_5.index t (1 : Fin 2) = (i 1).val / 512 := congrFun ht 1
  refine ⟨t, flush0_5 t, ?_⟩
  rw [mem_tile]
  intro a
  match a with
  | ⟨0, _⟩ => show win0_5.index t (0 : Fin 2) * 1024 ≤ (i 0).val ∧ (i 0).val < win0_5.index t (0 : Fin 2) * 1024 + 1024; omega
  | ⟨1, _⟩ => show win0_5.index t (1 : Fin 2) * 512 ≤ (i 1).val ∧ (i 1).val < win0_5.index t (1 : Fin 2) * 512 + 512; omega

/-- So the result array ends as `G` of the arguments. -/
theorem final (c : Dev nD) : (dats m 0 c).arrAt 5 cfg0.N = G (X m c) (P m c) (N m c) :=
  (dats m 0 c).arrAt_eq_of_cover 5 (G (X m c) (P m c) (N m c)) (fun t _ => flushed_eq m c t) cover

/-- The kernel's run: it terminates with the result array at `G` of the arguments, and the arguments unchanged. -/
theorem run : θ_run defs (onTc (τ := τ) (main (F := Ideal))) ⟨m, fun _ => 0, ρ⟩ fun r => ∀ c : Dev nD,
      r.2.mem ((c : Thread nD τ).loc main_v6) = G (X m c) (P m c) (N m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.PairDist.Tiles

end
-- ==== Proof.RefIsSpec.lean ====
/-
  The reference, read entry by entry, is the specified function.

  Its operations are read one at a time at an index: the two row-norm sums and the two products of matrices become sums over
  the 64 coordinates, every broadcast reads its operand at the coordinate it repeats, and the closing
  `1 / (1 + e^(−z))` is σ(z). The initial value `0` of each row sum is dropped.
-/
import proofs.«154758_j4140348473509_1_alg».proof.Proof.Gen.ReferenceIdeal.Read
import proofs.«154758_j4140348473509_1_alg».proof.Proof.Spec

noncomputable section

namespace Cert.PairDist.Ref

open Cert.ReferenceIdeal Cert.ReferenceIdeal.Read Idealize.ShloMosaic Idealize.ShloMosaic.ValueIdx Cert.PairDist

/-- The reference's last stage is `G` of its three arguments. -/
theorem stage_eq (x0 : (⟨S8192x64, .f32⟩ : BufTy).Contents (Elt Ideal)) (x1 x2 : (⟨S4096x64, .f32⟩ : BufTy).Contents (Elt Ideal)) :
    val_main_v38 (F := Ideal) x0 x1 x2 = G x0 x1 x2 := by
  funext i
  obtain ⟨a, b, rfl⟩ : ∃ (a : Fin 8192) (b : Fin 4096), i = ix2 a b := ⟨i 0, i 1, eq_ix2 i⟩
  rw [G_ix2]
  simp only [val_main_v38_apply, val_main_v37_apply, val_main_cst_8_apply, val_main_v36_apply, val_main_v35_apply, val_main_cst_7_apply, val_main_v34_apply, val_main_v33_apply, val_main_v32_apply, val_main_v31_apply, val_main_v30_apply, val_main_v29_apply, val_main_cst_6_apply, val_main_v28_apply, val_main_v27_apply, val_main_v26_apply, val_main_cst_5_apply, val_main_v25_apply, val_main_v24_apply, val_main_v23_apply, val_main_v22_apply, val_main_v21_apply, val_main_v20_apply, val_main_cst_4_apply, val_main_v19_apply, val_main_v18_apply, val_main_v17_apply, val_main_cst_3_apply, val_main_v16_apply, val_main_v15_apply, val_main_v14_apply, val_main_v13_apply, val_main_cst_2_apply, val_main_v12_apply, val_main_v11_apply, val_main_v10_apply, val_main_cst_1_apply, val_main_v9_apply, val_main_v8_apply, val_main_v7_apply, val_main_v6_apply, val_main_v5_apply, val_main_v4_apply, val_main_cst_0_apply, val_main_v3_apply, val_main_v2_apply, val_main_v1_apply, val_main_cst_apply, val_main_v0_apply]
  -- every composed index map is a row index paired with the summed coordinate
  have ea : ∀ k : Fin 64, idx_main_v1 (idx_main_v2 (idx_main_v7 (ix2 a b))) k = ix2 a k := fun k => funext fun d => Fin.ext (by match d with | ⟨0, _⟩ => rfl | ⟨1, _⟩ => rfl)
  have ea' : ∀ k : Fin 64, idx_main_v17 (idx_main_v18 (idx_main_v23 (ix2 a b))) k = ix2 a k := fun k => funext fun d => Fin.ext (by match d with | ⟨0, _⟩ => rfl | ⟨1, _⟩ => rfl)
  have eb : ∀ k : Fin 64, idx_main_v4 (idx_main_v5 (idx_main_v8 (ix2 a b))) k = ix2 b k := fun k => funext fun d => Fin.ext (by match d with | ⟨0, _⟩ => rfl | ⟨1, _⟩ => rfl)
  have eb' : ∀ k : Fin 64, idx_main_v20 (idx_main_v21 (idx_main_v24 (ix2 a b))) k = ix2 b k := fun k => funext fun d => Fin.ext (by match d with | ⟨0, _⟩ => rfl | ⟨1, _⟩ => rfl)
  have el : ∀ k : Fin 64, lidx_main_v6 (ix2 a b) k = ix2 a k := fun k => funext fun d => Fin.ext (by match d with | ⟨0, _⟩ => rfl | ⟨1, _⟩ => rfl)
  have er : ∀ k : Fin 64, ridx_main_v6 (ix2 a b) k = ix2 b k := fun k => funext fun d => Fin.ext (by match d with | ⟨0, _⟩ => rfl | ⟨1, _⟩ => rfl)
  have el' : ∀ k : Fin 64, lidx_main_v22 (ix2 a b) k = ix2 a k := fun k => funext fun d => Fin.ext (by match d with | ⟨0, _⟩ => rfl | ⟨1, _⟩ => rfl)
  have er' : ∀ k : Fin 64, ridx_main_v22 (ix2 a b) k = ix2 b k := fun k => funext fun d => Fin.ext (by match d with | ⟨0, _⟩ => rfl | ⟨1, _⟩ => rfl)
  simp only [ea, ea', eb, eb', el, er, el', er', Ideal.hostDivf_def, Ideal.addf_def, Ideal.ofBits_def, Ideal.hostUnary_exp_def,
    Ideal.hostNegf_def, Ideal.negf_def, Ideal.subf_def, Ideal.hostUnary_sqrt_def, Ideal.maximumf_def, Ideal.mulf_def,
    Ideal.ofBits_zero_f32, zero_add, logistic_spelt]
  rfl

end Cert.PairDist.Ref

end
-- ==== Proof.lean ====
/-
  Pairwise-distance preference scores: σ(d(Xᵢ, Nⱼ) − d(Xᵢ, Pⱼ)) for 8192 points against 4096 prototypes of each kind, with
  d(x, y) = √(max((‖x‖² + ‖y‖²) − 2⟨x, y⟩, 0)) and σ(z) = 1 / (1 + e^(−z)).

  The tiled program computes the prototypes' squared norms once, as two rows, and then fills the result tile by tile
  (1024 points × 512 prototypes per tile): the points' squared norms by a lane sum, the inner products by two products of
  the tile of points with the transposed tiles of prototypes (the factors narrowed to a shorter float format first, which is
  the identity on the extended reals), the rest entry by entry, σ as one operation. The reference computes the same
  ingredients on whole arrays and spells σ out as `1 / (1 + e^(−z))`. On the extended reals both are the one function `G` of
  Proof/Spec.lean, operation for operation: no rearrangement of a sum and no law that would need finite inputs is used, so
  the precondition is never opened.

  Proof/Payload.lean reads the tile computation at an entry, Proof/NormRows.lean the two precomputed rows,
  Proof/Tiles.lean turns tiles into the whole array and gives the tiled program's run, Proof/RefIsSpec.lean reads the
  reference. Here the two runs are set side by side. No rewrite separates the tiled program from its reading on the
  extended reals, so that conjunct is trivial; the three frames are the generated runs.
-/
import proofs.«154758_j4140348473509_1_alg».proof.Defs
import proofs.«154758_j4140348473509_1_alg».proof.Proof.Gen.Kernel
import proofs.«154758_j4140348473509_1_alg».proof.Proof.Gen.Kernel.Skeleton
import proofs.«154758_j4140348473509_1_alg».proof.Proof.Gen.Kernel.Launch
import proofs.«154758_j4140348473509_1_alg».proof.Proof.Gen.Kernel.Points
import proofs.«154758_j4140348473509_1_alg».proof.Proof.Gen.Kernel.Frame
import proofs.«154758_j4140348473509_1_alg».proof.Proof.Gen.KernelIdeal
import proofs.«154758_j4140348473509_1_alg».proof.Proof.Gen.KernelIdeal.Skeleton
import proofs.«154758_j4140348473509_1_alg».proof.Proof.Gen.KernelIdeal.Launch
import proofs.«154758_j4140348473509_1_alg».proof.Proof.Gen.KernelIdeal.Points
import proofs.«154758_j4140348473509_1_alg».proof.Proof.Gen.KernelIdeal.Frame
import proofs.«154758_j4140348473509_1_alg».proof.Proof.Gen.ReferenceIdeal
import proofs.«154758_j4140348473509_1_alg».proof.Proof.Gen.KernelIdeal.Value
import proofs.«154758_j4140348473509_1_alg».proof.Proof.Gen.ReferenceIdeal.Run
import proofs.«154758_j4140348473509_1_alg».proof.Proof.Gen.ReferenceIdeal.Read
import proofs.«154758_j4140348473509_1_alg».proof.Proof.Gen.Pre_finite_inputs
import proofs.«154758_j4140348473509_1_alg».proof.Proof.Tiles
import proofs.«154758_j4140348473509_1_alg».proof.Proof.RefIsSpec
import Idealize.ShloMosaic.Adequacy
import Idealize.ShloMosaic.Init

noncomputable section

namespace Cert.Proof

open Idealize.ShloMosaic Idealize.ShloMosaic.TcCoe Idealize.SL.Sem

/-- The tiled program, as printed, runs and leaves its arguments unchanged. -/
theorem frame_tiled : Cert.frame_Kernel := fun m ρ _ => Cert.Kernel.Gen.frame m ρ

/-- So does its reading on the extended reals. -/
theorem frame_tiled_ideal : Cert.frame_KernelIdeal := fun m ρ _ => Cert.KernelIdeal.Gen.frame m ρ

/-- The reference runs and leaves its arguments unchanged: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From arguments that agree, the tiled program's result array ends as `G` of them (Proof/Tiles.lean) and the reference's
    as its last stage, which is `G` of them too (Proof/RefIsSpec.lean). -/
theorem same_result : Cert.algebraic_KernelIdeal_ReferenceIdeal := by
  intro m ρ m' ρ' _ hagree
  refine ⟨fun c => Cert.PairDist.G (Cert.PairDist.Tiles.X m c) (Cert.PairDist.Tiles.P m c) (Cert.PairDist.Tiles.N m c),
    Cert.PairDist.Tiles.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v38_eq, Cert.PairDist.Ref.stage_eq, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_tiled, frame_tiled_ideal, frame_reference, trivial, same_result⟩

end Cert.Proof

end
